-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x128x128x3x64 : Shape := ⟨5, ![8, 128, 128, 3, 64]⟩
abbrev S8x128x128 : Shape := ⟨3, ![8, 128, 128]⟩
abbrev S128x128 : Shape := ⟨2, ![128, 128]⟩
abbrev S128 : Shape := ⟨1, ![128]⟩
abbrev S_ : Shape := ⟨0, ![]⟩

class Facts : Prop where
  bcast_S_S8x128x128x3x64 : S_.BroadcastsInDim S8x128x128x3x64 (![] : Fin 0 → Fin S8x128x128x3x64.rank)
  reducesTo_S8x128x128x3x64_S_d0_1_2_3_4 : S8x128x128x3x64.ReducesTo [0, 1, 2, 3, 4] S_
  h_S_ : 0 < S_.numel
  bcast_S_S8x128x128 : S_.BroadcastsInDim S8x128x128 (![] : Fin 0 → Fin S8x128x128.rank)
  reducesTo_S8x128x128_S_d0_1_2 : S8x128x128.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S8x128x128x3x64 .f32) (main_arg1 : FVec F S8x128x128x3x64 .f32) (main_arg2 : FVec F S8x128x128 .f32) (main_arg3 : FVec F S128x128 .f32) (main_arg4 : FVec F S128 .f32) : IVec S_ 1 :=
  let main_v0 : FVec F S8x128x128x3x64 .f32 := Host.absf main_arg0
  let main_cst : FVec F S_ .f32 := constant S_ .f32 0x7F800000#32
  let main_v1 : FVec F S8x128x128x3x64 .f32 := broadcastInDim S8x128x128x3x64 ![] bcast_S_S8x128x128x3x64 main_cst
  let main_v2 : IVec S8x128x128x3x64 1 := cmpf .olt main_v0 main_v1
  let main_c : IVec S_ 1 := constantI S_ 1 1#1
  let main_v3 : IVec S_ 1 := (fun x v => Host.reduce IntOp.andi x v reducesTo_S8x128x128x3x64_S_d0_1_2_3_4 h_S_) main_v2 main_c
  let main_v4 : FVec F S8x128x128x3x64 .f32 := Host.absf main_arg1
  let main_cst_0 : FVec F S_ .f32 := constant S_ .f32 0x7F800000#32
  let main_v5 : FVec F S8x128x128x3x64 .f32 := broadcastInDim S8x128x128x3x64 ![] bcast_S_S8x128x128x3x64 main_cst_0
  let main_v6 : IVec S8x128x128x3x64 1 := cmpf .olt main_v4 main_v5
  let main_c_1 : IVec S_ 1 := constantI S_ 1 1#1
  let main_v7 : IVec S_ 1 := (fun x v => Host.reduce IntOp.andi x v reducesTo_S8x128x128x3x64_S_d0_1_2_3_4 h_S_) main_v6 main_c_1
  let main_v8 : IVec S_ 1 := andi main_v3 main_v7
  let main_v9 : FVec F S8x128x128 .f32 := Host.absf main_arg2
  let main_cst_2 : FVec F S_ .f32 := constant S_ .f32 0x7F800000#32
  let main_v10 : FVec F S8x128x128 .f32 := broadcastInDim S8x128x128 ![] bcast_S_S8x128x128 main_cst_2
  let main_v11 : IVec S8x128x128 1 := cmpf .olt main_v9 main_v10
  let main_c_3 : IVec S_ 1 := constantI S_ 1 1#1
  let main_v12 : IVec S_ 1 := (fun x v => Host.reduce IntOp.andi x v reducesTo_S8x128x128_S_d0_1_2 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_v13 main_v16
-- ==== Kernel.lean ====
abbrev S8x128x128x3x64 : Shape := ⟨5, ![8, 128, 128, 3, 64]⟩
abbrev S8x128x128 : Shape := ⟨3, ![8, 128, 128]⟩
abbrev S128x128 : Shape := ⟨2, ![128, 128]⟩
abbrev S128 : Shape := ⟨1, ![128]⟩
abbrev S64x128 : Shape := ⟨2, ![64, 128]⟩
abbrev S8x128x3x128 : Shape := ⟨4, ![8, 128, 3, 128]⟩
abbrev S1x16x128x3x64 : Shape := ⟨5, ![1, 16, 128, 3, 64]⟩
abbrev S1x16x128 : Shape := ⟨3, ![1, 16, 128]⟩
abbrev S1x16x3x128 : Shape := ⟨4, ![1, 16, 3, 128]⟩
abbrev S16x128 : Shape := ⟨2, ![16, 128]⟩
abbrev S1x16x128x1x64 : Shape := ⟨5, ![1, 16, 128, 1, 64]⟩
abbrev S16x128x64 : Shape := ⟨3, ![16, 128, 64]⟩
abbrev S2048x64 : Shape := ⟨2, ![2048, 64]⟩
abbrev S2048x128 : Shape := ⟨2, ![2048, 128]⟩
abbrev S16x128x128 : Shape := ⟨3, ![16, 128, 128]⟩
abbrev S1x1x128 : Shape := ⟨3, ![1, 1, 128]⟩
abbrev S16x128x1 : Shape := ⟨3, ![16, 128, 1]⟩
abbrev S1x16x1x128 : Shape := ⟨4, ![1, 16, 1, 128]⟩

abbrev nBuf : Space → Nat
  | .hbm => 8
  | .vmem => 11
  | .smem => 0
  | _ => 0

abbrev bufTy : (tb : Table) → Fin (tcTables nBuf tb) → BufTy
  | .hbm, ⟨0, _⟩ => ⟨S8x128x128x3x64, .f32⟩
  | .hbm, ⟨1, _⟩ => ⟨S8x128x128x3x64, .f32⟩
  | .hbm, ⟨2, _⟩ => ⟨S8x128x128, .f32⟩
  | .hbm, ⟨3, _⟩ => ⟨S128x128, .f32⟩
  | .hbm, ⟨4, _⟩ => ⟨S128, .f32⟩
  | .hbm, ⟨5, _⟩ => ⟨S64x128, .f32⟩
  | .hbm, ⟨6, _⟩ => ⟨S64x128, .f32⟩
  | .hbm, ⟨7, _⟩ => ⟨S8x128x3x128, .f32⟩
  | .local _ .vmem, ⟨0, _⟩ => ⟨S1x16x128x3x64, .f32⟩
  | .local _ .vmem, ⟨1, _⟩ => ⟨S1x16x128x3x64, .f32⟩
  | .local _ .vmem, ⟨2, _⟩ => ⟨S1x16x128x3x64, .f32⟩
  | .local _ .vmem, ⟨3, _⟩ => ⟨S1x16x128x3x64, .f32⟩
  | .local _ .vmem, ⟨4, _⟩ => ⟨S1x16x128, .f32⟩
  | .local _ .vmem, ⟨5, _⟩ => ⟨S1x16x128, .f32⟩
  | .local _ .vmem, ⟨6, _⟩ => ⟨S64x128, .f32⟩
  | .local _ .vmem, ⟨7, _⟩ => ⟨S64x128, .f32⟩
  | .local _ .vmem, ⟨8, _⟩ => ⟨S128, .f32⟩
  | .local _ .vmem, ⟨9, _⟩ => ⟨S1x16x3x128, .f32⟩
  | .local _ .vmem, ⟨10, _⟩ => ⟨S1x16x3x128, .f32⟩
  | _, _ => ⟨S8x128x128x3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 8], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x16x128x3x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128x3x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x16x3x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  slices_S128x128_S64x128_0_0 : S128x128.Slices ![0, 0] S64x128
  slices_S128x128_S64x128_64_0 : S128x128.Slices ![64, 0] S64x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  bitsLt_bf16_f32 : FTy.bits .bf16 < FTy.bits .f32
  inb_S128_S128_0 : ∀ a, (![0] : Fin 1 → Nat) a + S128.size a ≤ S128.size a
  h_S128 : 0 < S128.numel
  inb_S1x16x128_S1x16x128_0_0_0 : ∀ a, (![0, 0, 0] : Fin 3 → Nat) a + S1x16x128.size a ≤ S1x16x128.size a
  h_S1x16x128 : 0 < S1x16x128.numel
  shapeCasts_S1x16x128_S16x128 : S1x16x128.ShapeCasts S16x128
  inb_S1x16x128x3x64_S1x16x128x1x64_0_0_0_0_0 : ∀ a, (![0, 0, 0, 0, 0] : Fin 5 → Nat) a + S1x16x128x1x64.size a ≤ S1x16x128x3x64.size a
  h_S1x16x128x1x64 : 0 < S1x16x128x1x64.numel
  shapeCasts_S1x16x128x1x64_S16x128x64 : S1x16x128x1x64.ShapeCasts S16x128x64
  shapeCasts_S16x128x64_S2048x64 : S16x128x64.ShapeCasts S2048x64
  shapeCasts_S2048x128_S16x128x128 : S2048x128.ShapeCasts S16x128x128
  shapeCasts_S128_S1x1x128 : S128.ShapeCasts S1x1x128
  broadcasts_S1x1x128_S16x128x128 : S1x1x128.Broadcasts S16x128x128
  shapeCasts_S16x128_S16x128x1 : S16x128.ShapeCasts S16x128x1
  broadcasts_S16x128x1_S16x128x128 : S16x128x1.Broadcasts S16x128x128
  reduces_S16x128x128_S16x128 : S16x128x128.Reduces [1] S16x128
  inb_S1x16x3x128_S1x16x1x128_0_0_0_0 : ∀ a, (![0, 0, 0, 0] : Fin 4 → Nat) a + S1x16x1x128.size a ≤ S1x16x3x128.size a
  h_S1x16x1x128 : 0 < S1x16x1x128.numel
  shapeCasts_S1x16x1x128_S16x128 : S1x16x1x128.ShapeCasts S16x128
  shapeCasts_S16x128_S1x16x1x128 : S16x128.ShapeCasts S1x16x1x128
  inb_S1x16x128x3x64_S1x16x128x1x64_0_0_0_1_0 : ∀ a, (![0, 0, 0, 1, 0] : Fin 5 → Nat) a + S1x16x128x1x64.size a ≤ S1x16x128x3x64.size a
  inb_S1x16x3x128_S1x16x1x128_0_0_1_0 : ∀ a, (![0, 0, 1, 0] : Fin 4 → Nat) a + S1x16x1x128.size a ≤ S1x16x3x128.size a
  inb_S1x16x128x3x64_S1x16x128x1x64_0_0_0_2_0 : ∀ a, (![0, 0, 0, 2, 0] : Fin 5 → Nat) a + S1x16x128x1x64.size a ≤ S1x16x128x3x64.size a
  inb_S1x16x3x128_S1x16x1x128_0_0_2_0 : ∀ a, (![0, 0, 2, 0] : Fin 4 → Nat) a + S1x16x1x128.size a ≤ S1x16x3x128.size a
  dot_S2048x64_S64x128_S2048x128_1_0_0_1_n_n_wf : DotDims.WF S2048x64 S64x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x128x3x64.size a ≤ S8x128x128x3x64.size a
  hwx0_0 : ∀ i : grid0.Coords, EltTy.bits .f32 = 32 ∨ (Rect.block (s := S8x128x128x3x64) S1x16x128x3x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x128x3x64.size a ≤ S8x128x128x3x64.size a
  hwx0_1 : ∀ i : grid0.Coords, EltTy.bits .f32 = 32 ∨ (Rect.block (s := S8x128x128x3x64) S1x16x128x3x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x128.size a ≤ S8x128x128.size a
  hwx0_2 : ∀ i : grid0.Coords, EltTy.bits .f32 = 32 ∨ (Rect.block (s := S8x128x128) S1x16x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x16x3x128.size a ≤ S8x128x3x128.size a
  hwx0_6 : ∀ i : grid0.Coords, EltTy.bits .f32 = 32 ∨ (Rect.block (s := S8x128x3x128) S1x16x3x128.size (cc0_transform_6 i) (hinb0_6 i)).WholeWords (EltTy.packing .f32)

variable [Facts₀]

def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf

abbrev win0_0 : Pipeline.Window sig grid0 :=
  Pipeline.Window.ofSpec (Memref.whole main_arg0) S1x16x128x3x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x128x3x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x16x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x16x3x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x128x128x3x64 : Shape := ⟨5, ![8, 128, 128, 3, 64]⟩
abbrev S8x128x128 : Shape := ⟨3, ![8, 128, 128]⟩
abbrev S128x128 : Shape := ⟨2, ![128, 128]⟩
abbrev S128 : Shape := ⟨1, ![128]⟩
abbrev S8x128x128x3x128 : Shape := ⟨5, ![8, 128, 128, 3, 128]⟩
abbrev S1x1x1x1x128 : Shape := ⟨5, ![1, 1, 1, 1, 128]⟩
abbrev S8x128x128x1x1 : Shape := ⟨5, ![8, 128, 128, 1, 1]⟩
abbrev S_ : Shape := ⟨0, ![]⟩
abbrev S8x128x3x128 : Shape := ⟨4, ![8, 128, 3, 128]⟩

abbrev nBuf : Space → Nat
  | .hbm => 18
  | .vmem => 0
  | .smem => 0
  | _ => 0

abbrev bufTy : (tb : Table) → Fin (tcTables nBuf tb) → BufTy
  | .hbm, ⟨0, _⟩ => ⟨S8x128x128x3x64, .f32⟩
  | .hbm, ⟨1, _⟩ => ⟨S8x128x128x3x64, .f32⟩
  | .hbm, ⟨2, _⟩ => ⟨S8x128x128, .f32⟩
  | .hbm, ⟨3, _⟩ => ⟨S128x128, .f32⟩
  | .hbm, ⟨4, _⟩ => ⟨S128, .f32⟩
  | .hbm, ⟨5, _⟩ => ⟨S8x128x128x3x128, .f32⟩
  | .hbm, ⟨6, _⟩ => ⟨S8x128x128x3x128, .f32⟩
  | .hbm, ⟨7, _⟩ => ⟨S1x1x1x1x128, .f32⟩
  | .hbm, ⟨8, _⟩ => ⟨S8x128x128x3x128, .f32⟩
  | .hbm, ⟨9, _⟩ => ⟨S8x128x128x3x128, .f32⟩
  | .hbm, ⟨10, _⟩ => ⟨S8x128x128x1x1, .f32⟩
  | .hbm, ⟨11, _⟩ => ⟨S8x128x128x3x128, .f32⟩
  | .hbm, ⟨12, _⟩ => ⟨S8x128x128x3x128, .f32⟩
  | .hbm, ⟨13, _⟩ => ⟨S_, .f32⟩
  | .hbm, ⟨14, _⟩ => ⟨S8x128x3x128, .f32⟩
  | .hbm, ⟨15, _⟩ => ⟨S_, .f32⟩
  | .hbm, ⟨16, _⟩ => ⟨S8x128x3x128, .f32⟩
  | .hbm, ⟨17, _⟩ => ⟨S8x128x3x128, .f32⟩
  | _, _ => ⟨S8x128x128x3x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_call0_cst : Ref sig .tc := ⟨.hbm, 15, rfl⟩
abbrev main_call0_v0 : Ref sig .tc := ⟨.hbm, 16, rfl⟩
abbrev main_v9 : Ref sig .tc := ⟨.hbm, 17, rfl⟩

abbrev nD : Nat := 1
abbrev τ : Topo := Topo.v7x

variable {F : FTy → Type} [FloatOps F]

class Facts₀ : Prop where
  concatenates_S8x128x128x3x64_S8x128x128x3x64_S8x128x128x3x128_d4 : Shape.Concatenates [S8x128x128x3x64, S8x128x128x3x64] S8x128x128x3x128 4
  bcast_S128_S1x1x1x1x128_4 : S128.BroadcastsInDim S1x1x1x1x128 (![4] : Fin 1 → Fin S1x1x1x1x128.rank)
  bcast_S1x1x1x1x128_S8x128x128x3x128_0_1_2_3_4 : S1x1x1x1x128.BroadcastsInDim S8x128x128x3x128 (![0, 1, 2, 3, 4] : Fin 5 → Fin S8x128x128x3x128.rank)
  bcast_S8x128x128_S8x128x128x1x1_0_1_2 : S8x128x128.BroadcastsInDim S8x128x128x1x1 (![0, 1, 2] : Fin 3 → Fin S8x128x128x1x1.rank)
  bcast_S8x128x128x1x1_S8x128x128x3x128_0_1_2_3_4 : S8x128x128x1x1.BroadcastsInDim S8x128x128x3x128 (![0, 1, 2, 3, 4] : Fin 5 → Fin S8x128x128x3x128.rank)
  reducesTo_S8x128x128x3x128_S8x128x3x128_d2 : S8x128x128x3x128.ReducesTo [2] S8x128x3x128
  h_S_ : 0 < S_.numel
  bcast_S_S8x128x3x128 : S_.BroadcastsInDim S8x128x3x128 (![] : Fin 0 → Fin S8x128x3x128.rank)
  dot_S8x128x128x3x128_S128x128_S8x128x128x3x128_4_0_0123_1_n_n_wf : DotDims.WF S8x128x128x3x128 S128x128 S8x128x128x3x128 [4] [0] [0, 1, 2, 3] [1] [] []

variable [Facts₀]

def dot_S8x128x128x3x128_S128x128_S8x128x128x3x128_4_0_0123_1_n_n : DotDims S8x128x128x3x128 S128x128 S8x128x128x3x128 where
  lhsContracting := [4]
  rhsContracting := [0]
  lhsNonContracting := [0, 1, 2, 3]
  rhsNonContracting := [1]
  lhsBatch := []
  rhsBatch := []
  wf := dot_S8x128x128x3x128_S128x128_S8x128x128x3x128_4_0_0123_1_n_n_wf

class Facts : Prop extends Facts₀ where

variable [Facts]
-- ==== Proof.Spec.lean ====
/-
  The mathematics both programs compute, stated once over the extended reals.

  A graph layer over 8 batches of 128 nodes: for node i, coordinate channel c and filter o,
  every neighbour j contributes the projection of its two 64-feature edge vectors
  (v1 against the upper 64 rows of the weight matrix, v2 against the lower 64), plus the
  bias, scaled by the adjacency entry (i, j); the contributions are summed over the
  128 neighbours and clamped below at zero.

      out[b, i, c, o] = max (∑ j, ((∑ f, v1[b,i,j,c,f] · wa[f,o]) + (∑ f, v2[b,i,j,c,f] · wb[f,o]) + bias[o]) · adj[b,i,j]) 0

  The one law used to join the two programs: a sum over 128 = 64 + 64 contracted
  features is the sum over the first 64 plus the sum over the last 64. It holds in every
  additive commutative monoid, so no finiteness of the inputs is needed.
-/
import Idealize.ShloMosaic.PureOps.Ideal
import Idealize.ShloMosaic.PureOps.Ideal.Laws
import Idealize.ShloMosaic.Lib.ValueIdx

noncomputable section

namespace Cert.GraphConv

open Idealize.ShloMosaic Idealize.ShloMosaic.ValueIdx

/-- The clamp's floor: the f32 zero word, kept as a word on both sides (never evaluated). -/
abbrev floor0 : EReal := Ideal.ofBits .f32 0x00000000#32

/-- One neighbour's contribution to node (b, i), channel c, filter o. -/
def contrib (v1 v2 : (⟨5, ![8, 128, 128, 3, 64]⟩ : Shape).Idx → EReal) (adj : (⟨3, ![8, 128, 128]⟩ : Shape).Idx → EReal)
    (wa wb : (⟨2, ![64, 128]⟩ : Shape).Idx → EReal) (bias : (⟨1, ![128]⟩ : Shape).Idx → EReal)
    (b : Fin 8) (i : Fin 128) (c : Fin 3) (o : Fin 128) (j : Fin 128) : EReal :=
  ((∑ f : Fin 64, v1 (ix5 b i j c f) * wa (ix2 f o)) + (∑ f : Fin 64, v2 (ix5 b i j c f) * wb (ix2 f o)) + bias (ix1 o))
    * adj (ix3 b i j)

/-- The layer's output at explicit coordinates. -/
def nodeOutAt (v1 v2 : (⟨5, ![8, 128, 128, 3, 64]⟩ : Shape).Idx → EReal) (adj : (⟨3, ![8, 128, 128]⟩ : Shape).Idx → EReal)
    (wa wb : (⟨2, ![64, 128]⟩ : Shape).Idx → EReal) (bias : (⟨1, ![128]⟩ : Shape).Idx → EReal)
    (b : Fin 8) (i : Fin 128) (c : Fin 3) (o : Fin 128) : EReal :=
  max (∑ j : Fin 128, contrib v1 v2 adj wa wb bias b i c o j) floor0

/-- The layer's output as one array. -/
def nodeOut (v1 v2 : (⟨5, ![8, 128, 128, 3, 64]⟩ : Shape).Idx → EReal) (adj : (⟨3, ![8, 128, 128]⟩ : Shape).Idx → EReal)
    (wa wb : (⟨2, ![64, 128]⟩ : Shape).Idx → EReal) (bias : (⟨1, ![128]⟩ : Shape).Idx → EReal) :
    (⟨4, ![8, 128, 3, 128]⟩ : Shape).Idx → EReal :=
  fun y => nodeOutAt v1 v2 adj wa wb bias (y 0) (y 1) (y 2) (y 3)

theorem nodeOut_ix4 (v1 v2 : (⟨5, ![8, 128, 128, 3, 64]⟩ : Shape).Idx → EReal) (adj : (⟨3, ![8, 128, 128]⟩ : Shape).Idx → EReal)
    (wa wb : (⟨2, ![64, 128]⟩ : Shape).Idx → EReal) (bias : (⟨1, ![128]⟩ : Shape).Idx → EReal)
    (b : Fin 8) (i : Fin 128) (c : Fin 3) (o : Fin 128) :
    nodeOut v1 v2 adj wa wb bias (ix4 b i c o) = nodeOutAt v1 v2 adj wa wb bias b i c o := rfl

/-- A sum over 128 contracted features splits at 64: the first 64 terms, then the last 64. -/
theorem sum_split_64 {M : Type*} [AddCommMonoid M] (g : Fin 128 → M) :
    ∑ k : Fin 128, g k
      = (∑ f : Fin 64, g ⟨f.val, by have := f.isLt; omega⟩) + ∑ f : Fin 64, g ⟨64 + f.val, by have := f.isLt; omega⟩ := by
  have h := Fin.sum_univ_add (M := M) (a := 64) (b := 64) g
  refine h.trans ?_
  congr 1

end Cert.GraphConv

end
-- ==== Proof.Tile.lean ====
/-
  What the kernel body computes for one coordinate channel of one 16-node tile.

  For each of the three channels the body does the same thing to its operands: the two
  64-feature slabs of the tile's 16 × 128 (node, neighbour) pairs, flattened to 2048 rows, are
  each multiplied into a 64 × 128 weight half (from a zero accumulator), the two products are
  added, viewed again as 16 × 128 × 128, the bias is added along the filter axis, every
  (node, neighbour) row is scaled by its adjacency entry, the neighbour axis is summed and the
  result is clamped below at zero. Read at node r and filter o this is

      max (∑ j, ((∑ f, a1[r·128 + j, f] · wa[f, o]) + (∑ f, a2[r·128 + j, f] · wb[f, o]) + bias[o]) · adj[r, j]) 0.

  The changes of float format in the body are the identity over the extended reals.
-/
import proofs.«172524_j6451040878948_1_alg».proof.Proof.Gen.KernelIdeal.Skeleton
import proofs.«172524_j6451040878948_1_alg».proof.Proof.Spec
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen
open Idealize.ShloMosaic Idealize.ShloMosaic.ValueIdx Cert.GraphConv

/-! ## A row of a product: the contraction over the 64 features -/

theorem lhs_row (i : S2048x128.Idx) (q : dot_S2048x64_S64x128_S2048x128_1_0_0_1_n_n.contr.Idx) :
    (dot_S2048x64_S64x128_S2048x128_1_0_0_1_n_n.lhsIdx i q 0).val = (i 0).val := by
  unfold DotDims.lhsIdx
  rw [dif_neg (show ¬(0 : Fin S2048x64.rank) ∈ dot_S2048x64_S64x128_S2048x128_1_0_0_1_n_n.lhsBatch by decide), dif_pos (show (0 : Fin S2048x64.rank) ∈ dot_S2048x64_S64x128_S2048x128_1_0_0_1_n_n.lhsNonContracting by decide)]
  rfl
theorem lhs_feat (i : S2048x128.Idx) (q : dot_S2048x64_S64x128_S2048x128_1_0_0_1_n_n.contr.Idx) :
    (dot_S2048x64_S64x128_S2048x128_1_0_0_1_n_n.lhsIdx i q 1).val = (q ⟨0, by decide⟩).val :=
  dot_S2048x64_S64x128_S2048x128_1_0_0_1_n_n.lhsIdx_val_of_single rfl i q
theorem rhs_feat (i : S2048x128.Idx) (q : dot_S2048x64_S64x128_S2048x128_1_0_0_1_n_n.contr.Idx) :
    (dot_S2048x64_S64x128_S2048x128_1_0_0_1_n_n.rhsIdx i q 0).val = (q ⟨0, by decide⟩).val :=
  dot_S2048x64_S64x128_S2048x128_1_0_0_1_n_n.rhsIdx_val_of_single rfl i q
theorem rhs_col (i : S2048x128.Idx) (q : dot_S2048x64_S64x128_S2048x128_1_0_0_1_n_n.contr.Idx) :
    (dot_S2048x64_S64x128_S2048x128_1_0_0_1_n_n.rhsIdx i q 1).val = (i 1).val := by
  unfold DotDims.rhsIdx
  rw [dif_neg (show ¬(1 : Fin S64x128.rank) ∈ dot_S2048x64_S64x128_S2048x128_1_0_0_1_n_n.rhsBatch by decide), dif_pos (show (1 : Fin S64x128.rank) ∈ dot_S2048x64_S64x128_S2048x128_1_0_0_1_n_n.rhsNonContracting by decide)]
  rfl

/-- Entry (p, o) of a 2048 × 64 by 64 × 128 product from a zero accumulator: the sum over the 64 features. -/
theorem product_apply (A : FVec Ideal S2048x64 .bf16) (W : FVec Ideal S64x128 .bf16) (p : Fin 2048) (o : Fin 128) :
    matmul dot_S2048x64_S64x128_S2048x128_1_0_0_1_n_n none A W (constant S2048x128 .f32 0x00000000#32) (ix2 p o)
      = ∑ f : Fin 64, A (ix2 p f) * W (ix2 f o) := by
  refine (Ideal.matmul_constant_zero_apply dot_S2048x64_S64x128_S2048x128_1_0_0_1_n_n none A W (ix2 p o)).trans ?_
  rw [← Equiv.sum_comp (ValueIdx.contrEquiv1 dot_S2048x64_S64x128_S2048x128_1_0_0_1_n_n 64 rfl rfl).symm]
  refine Finset.sum_congr rfl fun k _ => ?_
  have hk := ValueIdx.contrEquiv1_symm_val dot_S2048x64_S64x128_S2048x128_1_0_0_1_n_n 64 rfl rfl k
  have el : dot_S2048x64_S64x128_S2048x128_1_0_0_1_n_n.lhsIdx (ix2 p o) ((ValueIdx.contrEquiv1 dot_S2048x64_S64x128_S2048x128_1_0_0_1_n_n 64 rfl rfl).symm k) = ix2 p k := funext fun a => Fin.ext (by
    match a with
    | ⟨0, _⟩ => exact lhs_row _ _
    | ⟨1, _⟩ => exact (lhs_feat _ _).trans hk)
  have er : dot_S2048x64_S64x128_S2048x128_1_0_0_1_n_n.rhsIdx (ix2 p o) ((ValueIdx.contrEquiv1 dot_S2048x64_S64x128_S2048x128_1_0_0_1_n_n 64 rfl rfl).symm k) = ix2 k o := funext fun a => Fin.ext (by
    match a with
    | ⟨0, _⟩ => exact (rhs_feat _ _).trans hk
    | ⟨1, _⟩ => exact rhs_col _ _)
  rw [el, er]

/-! ## One channel of one tile -/

/-- Row r·128 + j of the flattened (node, neighbour) pairs. -/
abbrev pairRow (r : Fin 16) (j : Fin 128) : Fin 2048 := ⟨r.val * 128 + j.val, by have := r.isLt; have := j.isLt; omega⟩

/-- The body's computation for one channel, from the two weight halves, the bias, the adjacency tile and the two
    flattened feature slabs. -/
def channel (wa wb : FVec Ideal S64x128 .bf16) (bias : Vec Ideal S128 .f32) (adj : FVec Ideal S16x128 .f32)
    (a1 a2 : FVec Ideal S2048x64 .bf16) : FVec Ideal S16x128 .f32 :=
  maximumf
    (multiReduction .add [1] S16x128
      (mulf
        (addf
          (shapeCast S16x128x128
            (addf (matmul dot_S2048x64_S64x128_S2048x128_1_0_0_1_n_n none a1 wa (constant S2048x128 .f32 0x00000000#32))
              (matmul dot_S2048x64_S64x128_S2048x128_1_0_0_1_n_n none a2 wb (constant S2048x128 .f32 0x00000000#32)))
            shapeCasts_S2048x128_S16x128x128)
          (broadcastTo S16x128x128 (shapeCast S1x1x128 bias shapeCasts_S128_S1x1x128) broadcasts_S1x1x128_S16x128x128))
        (broadcastTo S16x128x128 (shapeCast S16x128x1 adj shapeCasts_S16x128_S16x128x1) broadcasts_S16x128x1_S16x128x128))
      0x00000000#32 reduces_S16x128x128_S16x128 (.inl rfl) rfl)
    (broadcast S16x128 (Scalar.ofBits .f32 0x00000000#32))

/-- The adjacency tile broadcast along the filter axis, read at (r, j, o). -/
theorem adj_apply (adj : FVec Ideal S16x128 .f32) (r : Fin 16) (j o : Fin 128) :
    broadcastTo S16x128x128 (shapeCast S16x128x1 adj shapeCasts_S16x128_S16x128x1) broadcasts_S16x128x1_S16x128x128 (ix3 r j o)
      = adj (ix2 r j) := by
  refine (broadcastTo_apply _ broadcasts_S16x128x1_S16x128x128 (ix3 r j o) (ix3 r j (0 : Fin 1)) (fun a => by
    match a with
    | ⟨0, _⟩ => show r.val = if (16 : Nat) = 1 then 0 else r.val; rw [if_neg (by decide)]
    | ⟨1, _⟩ => show j.val = if (128 : Nat) = 1 then 0 else j.val; rw [if_neg (by decide)]
    | ⟨2, _⟩ => show 0 = if (1 : Nat) = 1 then 0 else o.val; rw [if_pos rfl])).trans ?_
  exact shapeCast_apply adj shapeCasts_S16x128_S16x128x1 (ix3 r j (0 : Fin 1)) (ix2 r j) (by
    rw [Shape.rowMajor_val_two, Shape.rowMajor_val_three]
    show r.val * 128 + j.val = (r.val * 128 + j.val) * 1 + 0
    omega)

/-- The bias broadcast over the (node, neighbour) pairs, read at (r, j, o). -/
theorem bias_apply (bias : Vec Ideal S128 .f32) (r : Fin 16) (j o : Fin 128) :
    broadcastTo S16x128x128 (shapeCast S1x1x128 bias shapeCasts_S128_S1x1x128) broadcasts_S1x1x128_S16x128x128 (ix3 r j o)
      = bias (ix1 o) := by
  refine (broadcastTo_apply _ broadcasts_S1x1x128_S16x128x128 (ix3 r j o) (ix3 (0 : Fin 1) (0 : Fin 1) o) (fun a => by
    match a with
    | ⟨0, _⟩ => show 0 = if (1 : Nat) = 1 then 0 else r.val; rw [if_pos rfl]
    | ⟨1, _⟩ => show 0 = if (1 : Nat) = 1 then 0 else j.val; rw [if_pos rfl]
    | ⟨2, _⟩ => show o.val = if (128 : Nat) = 1 then 0 else o.val; rw [if_neg (by decide)])).trans ?_
  exact shapeCast_apply bias shapeCasts_S128_S1x1x128 (ix3 (0 : Fin 1) (0 : Fin 1) o) (ix1 o) (by
    rw [Shape.rowMajor_val_one, Shape.rowMajor_val_three]
    show o.val = (0 * 1 + 0) * 128 + o.val
    omega)

/-- The flat 2048 × 128 product viewed as 16 × 128 × 128, read at (r, j, o). -/
theorem unflatten_apply (P : FVec Ideal S2048x128 .f32) (r : Fin 16) (j o : Fin 128) :
    shapeCast S16x128x128 P shapeCasts_S2048x128_S16x128x128 (ix3 r j o) = P (ix2 (pairRow r j) o) :=
  shapeCast_apply P shapeCasts_S2048x128_S16x128x128 (ix3 r j o) (ix2 (pairRow r j) o) (by
    rw [Shape.rowMajor_val_two, Shape.rowMajor_val_three]
    show (r.val * 128 + j.val) * 128 + o.val = (r.val * 128 + j.val) * 128 + o.val
    rfl)

/-- ONE CHANNEL AT AN INDEX: node r, filter o. -/
theorem channel_apply (wa wb : FVec Ideal S64x128 .bf16) (bias : Vec Ideal S128 .f32) (adj : FVec Ideal S16x128 .f32)
    (a1 a2 : FVec Ideal S2048x64 .bf16) (r : Fin 16) (o : Fin 128) :
    channel wa wb bias adj a1 a2 (ix2 r o)
      = max (∑ j : Fin 128, ((∑ f : Fin 64, a1 (ix2 (pairRow r j) f) * wa (ix2 f o))
            + (∑ f : Fin 64, a2 (ix2 (pairRow r j) f) * wb (ix2 f o)) + bias (ix1 o)) * adj (ix2 r j)) floor0 := by
  unfold channel
  refine congrArg (fun s => max s floor0) ?_
  refine (Ideal.multiReduction_add_single _ 0x00000000#32 reduces_S16x128x128_S16x128 (.inl rfl) rfl (ix2 r o)).trans ?_
  show ∑ j : Fin 128, _ = _
  refine Finset.sum_congr rfl fun j _ => ?_
  have e : reduces_S16x128x128_S16x128.lift (ix2 r o) j = ix3 r j o :=
    funext fun a => Fin.ext (by match a with | ⟨0, _⟩ => rfl | ⟨1, _⟩ => rfl | ⟨2, _⟩ => rfl)
  rw [e, mulf_apply, addf_apply, adj_apply, bias_apply, unflatten_apply, addf_apply, product_apply, product_apply]

end Cert.KernelIdeal.Tile

end
-- ==== Proof.Block.lean ====
/-
  What the kernel body leaves in the output tile, as one function of the block index.

  The body stores three pieces into the 1 × 16 × 3 × 128 output tile, one per coordinate
  channel c, through the rectangle that fixes the channel axis at c. Each piece is the channel
  computation of Tile.lean applied to the c-th slab of the two feature blocks, so the tile read
  at (0, r, c, o) is

      max (∑ j, ((∑ f, x0[0,r,j,c,f] · x3[f,o]) + (∑ f, x1[0,r,j,c,f] · x4[f,o]) + x5[o]) · x2[0,r,j]) 0

  whichever piece covers the index: the three rectangles tile the block.
-/
import proofs.«172524_j6451040878948_1_alg».proof.Proof.Gen.KernelIdeal.Frame
import proofs.«172524_j6451040878948_1_alg».proof.Proof.Tile

set_option maxRecDepth 16384

noncomputable section

namespace Cert.KernelIdeal.Block

open Cert.KernelIdeal Cert.KernelIdeal.Gen Cert.KernelIdeal.Tile
open Idealize.ShloMosaic Idealize.ShloMosaic.ValueIdx Cert.GraphConv

/-- The output tile at explicit coordinates, from the six input blocks. -/
def tileOutAt (x0 x1 : Vec Ideal S1x16x128x3x64 .f32) (x2 : Vec Ideal S1x16x128 .f32) (x3 x4 : Vec Ideal S64x128 .f32)
    (x5 : Vec Ideal S128 .f32) (r : Fin 16) (c : Fin 3) (o : Fin 128) : EReal :=
  max (∑ j : Fin 128, ((∑ f : Fin 64, x0 (ix5 (0 : Fin 1) r j c f) * x3 (ix2 f o))
        + (∑ f : Fin 64, x1 (ix5 (0 : Fin 1) r j c f) * x4 (ix2 f o)) + x5 (ix1 o)) * x2 (ix3 (0 : Fin 1) r j)) floor0

/-- The output tile as one array over the block's indices. -/
def tileOut (x0 x1 : Vec Ideal S1x16x128x3x64 .f32) (x2 : Vec Ideal S1x16x128 .f32) (x3 x4 : Vec Ideal S64x128 .f32)
    (x5 : Vec Ideal S128 .f32) : S1x16x3x128.Idx → EReal :=
  fun y => tileOutAt x0 x1 x2 x3 x4 x5 (y 1) (y 2) (y 3)

/-! ## The operands of a channel, read at an index -/

/-- A weight half as loaded (whole block, format change the identity). -/
theorem weight_apply (x : Vec Ideal S64x128 .f32) (f : Fin 64) (o : Fin 128) :
    truncf (F := Ideal) .bf16 (shapeCast S64x128 (View.ld x r0_0) shapeCasts_S64x128_S64x128) bitsLt_bf16_f32 (ix2 f o) = x (ix2 f o) := by
  show shapeCast S64x128 (View.ld x r0_0) shapeCasts_S64x128_S64x128 (ix2 f o) = _
  refine (shapeCast_apply (View.ld x r0_0) shapeCasts_S64x128_S64x128 (ix2 f o) (ix2 f o) rfl).trans ?_
  exact congrArg x (funext fun a => Fin.ext (by
    match a with
    | ⟨0, _⟩ => show 0 + 1 * f.val = f.val; omega
    | ⟨1, _⟩ => show 0 + 1 * o.val = o.val; omega))

/-- The bias as loaded. -/
theorem biasLoad_apply (x : Vec Ideal S128 .f32) (o : Fin 128) : View.ld x r0_1 (ix1 o) = x (ix1 o) :=
  congrArg x (funext fun a => Fin.ext (by
    match a with
    | ⟨0, _⟩ => show 0 + 1 * o.val = o.val; omega))

/-- The adjacency tile as loaded and viewed 16 × 128. -/
theorem adjLoad_apply (x : Vec Ideal S1x16x128 .f32) (r : Fin 16) (j : Fin 128) :
    shapeCast S16x128 (View.ld x r0_2) shapeCasts_S1x16x128_S16x128 (ix2 r j) = x (ix3 (0 : Fin 1) r j) := by
  refine (shapeCast_apply _ shapeCasts_S1x16x128_S16x128 (ix2 r j) (ix3 (0 : Fin 1) r j) (by
    rw [Shape.rowMajor_val_two, Shape.rowMajor_val_three]
    show (0 * 16 + r.val) * 128 + j.val = r.val * 128 + j.val
    omega)).trans ?_
  exact congrArg x (funext fun a => Fin.ext (by
    match a with
    | ⟨0, _⟩ => show 0 + 1 * 0 = 0; rfl
    | ⟨1, _⟩ => show 0 + 1 * r.val = r.val; omega
    | ⟨2, _⟩ => show 0 + 1 * j.val = j.val; omega))

/-- A loaded one-channel slab, flattened to 2048 × 64 and narrowed, read at pair (r, j), feature f. -/
theorem slab_apply (v : Vec Ideal S1x16x128x1x64 .f32) (r : Fin 16) (j : Fin 128) (f : Fin 64) :
    truncf (F := Ideal) .bf16 (shapeCast S2048x64 (shapeCast S16x128x64 v shapeCasts_S1x16x128x1x64_S16x128x64) shapeCasts_S16x128x64_S2048x64)
        bitsLt_bf16_f32 (ix2 (pairRow r j) f)
      = v (ix5 (0 : Fin 1) r j (0 : Fin 1) f) := by
  show shapeCast S2048x64 (shapeCast S16x128x64 v shapeCasts_S1x16x128x1x64_S16x128x64) shapeCasts_S16x128x64_S2048x64 (ix2 (pairRow r j) f) = _
  refine (shapeCast_apply _ shapeCasts_S16x128x64_S2048x64 (ix2 (pairRow r j) f) (ix3 r j f) (by
    rw [Shape.rowMajor_val_two, Shape.rowMajor_val_three]
    show (r.val * 128 + j.val) * 64 + f.val = (r.val * 128 + j.val) * 64 + f.val
    rfl)).trans ?_
  exact shapeCast_apply v shapeCasts_S1x16x128x1x64_S16x128x64 (ix3 r j f) (ix5 (0 : Fin 1) r j (0 : Fin 1) f) (by
    rw [Shape.rowMajor_val_three, Shape.rowMajor_val_five]
    show (((0 * 16 + r.val) * 128 + j.val) * 1 + 0) * 64 + f.val = (r.val * 128 + j.val) * 64 + f.val
    omega)

/-- Channel c's slab of a feature block, read at (0, r, j, 0, f), is the block at (0, r, j, c, f). -/
theorem slabLoad_apply (x : Vec Ideal S1x16x128x3x64 .f32) (c : Fin 3) (inb) (r : Fin 16) (j : Fin 128) (f : Fin 64) :
    View.ld x (Rect.unit (s := S1x16x128x3x64) ![0, 0, 0, c.val, 0] S1x16x128x1x64.size inb) (ix5 (0 : Fin 1) r j (0 : Fin 1) f)
      = x (ix5 (0 : Fin 1) r j c f) :=
  congrArg x (funext fun a => Fin.ext (by
    match a with
    | ⟨0, _⟩ => show 0 + 1 * 0 = 0; rfl
    | ⟨1, _⟩ => show 0 + 1 * r.val = r.val; omega
    | ⟨2, _⟩ => show 0 + 1 * j.val = j.val; omega
    | ⟨3, _⟩ => show c.val + 1 * 0 = c.val; omega
    | ⟨4, _⟩ => show 0 + 1 * f.val = f.val; omega))

/-- A channel's result stored as a 1 × 16 × 1 × 128 piece, read at (0, r, 0, o). -/
theorem piece_apply (ch : FVec Ideal S16x128 .f32) (z z' : Fin 1) (r : Fin 16) (o : Fin 128) :
    shapeCast S1x16x1x128 ch shapeCasts_S16x128_S1x16x1x128 (ix4 z r z' o) = ch (ix2 r o) :=
  shapeCast_apply ch shapeCasts_S16x128_S1x16x1x128 (ix4 z r z' o) (ix2 r o) (by
    rw [Shape.rowMajor_val_two, Shape.rowMajor_val_four]
    show r.val * 128 + o.val = (((z.val * 16 + r.val) * 1 + z'.val) * 128 + o.val)
    have := z.isLt; have := z'.isLt; omega)

/-- The channel computation on channel c's slabs of the blocks, at (r, o), is the output tile at (r, c, o). -/
theorem channel_on_blocks (x0 x1 : Vec Ideal S1x16x128x3x64 .f32) (x2 : Vec Ideal S1x16x128 .f32) (x3 x4 : Vec Ideal S64x128 .f32)
    (x5 : Vec Ideal S128 .f32) (c : Fin 3) (inb) (r : Fin 16) (o : Fin 128) :
    channel (truncf .bf16 (shapeCast S64x128 (View.ld x3 r0_0) shapeCasts_S64x128_S64x128) bitsLt_bf16_f32)
        (truncf .bf16 (shapeCast S64x128 (View.ld x4 r0_0) shapeCasts_S64x128_S64x128) bitsLt_bf16_f32)
        (View.ld x5 r0_1)
        (shapeCast S16x128 (View.ld x2 r0_2) shapeCasts_S1x16x128_S16x128)
        (truncf .bf16 (shapeCast S2048x64 (shapeCast S16x128x64
          (View.ld x0 (Rect.unit (s := S1x16x128x3x64) ![0, 0, 0, c.val, 0] S1x16x128x1x64.size inb)) shapeCasts_S1x16x128x1x64_S16x128x64)
          shapeCasts_S16x128x64_S2048x64) bitsLt_bf16_f32)
        (truncf .bf16 (shapeCast S2048x64 (shapeCast S16x128x64
          (View.ld x1 (Rect.unit (s := S1x16x128x3x64) ![0, 0, 0, c.val, 0] S1x16x128x1x64.size inb)) shapeCasts_S1x16x128x1x64_S16x128x64)
          shapeCasts_S16x128x64_S2048x64) bitsLt_bf16_f32)
        (ix2 r o)
      = tileOutAt x0 x1 x2 x3 x4 x5 r c o := by
  rw [channel_apply]
  unfold tileOutAt
  refine congrArg (fun s => max s floor0) (Finset.sum_congr rfl fun j _ => ?_)
  refine congrArg₂ (· * ·) (congrArg₂ (· + ·) (congrArg₂ (· + ·) (Finset.sum_congr rfl fun f _ => ?_)
    (Finset.sum_congr rfl fun f _ => ?_)) ?_) ?_
  · exact congrArg₂ (· * ·) ((slab_apply _ r j f).trans (slabLoad_apply x0 c inb r j f)) (weight_apply x3 f o)
  · exact congrArg₂ (· * ·) ((slab_apply _ r j f).trans (slabLoad_apply x1 c inb r j f)) (weight_apply x4 f o)
  · exact biasLoad_apply x5 o
  · exact adjLoad_apply x2 r j

/-! ## The three stored pieces, and the tile they leave -/

/-- The piece stored for channel c, read at a local index, is the output tile at the index its rectangle gives it. -/
theorem stored_piece (x0 x1 : Vec Ideal S1x16x128x3x64 .f32) (x2 : Vec Ideal S1x16x128 .f32) (x3 x4 : Vec Ideal S64x128 .f32)
    (x5 : Vec Ideal S128 .f32) (c : Fin 3) (inbL) (inbS) (x : S1x16x1x128.Idx) :
    shapeCast S1x16x1x128
        (channel (truncf .bf16 (shapeCast S64x128 (View.ld x3 r0_0) shapeCasts_S64x128_S64x128) bitsLt_bf16_f32)
          (truncf .bf16 (shapeCast S64x128 (View.ld x4 r0_0) shapeCasts_S64x128_S64x128) bitsLt_bf16_f32)
          (View.ld x5 r0_1)
          (shapeCast S16x128 (View.ld x2 r0_2) shapeCasts_S1x16x128_S16x128)
          (truncf .bf16 (shapeCast S2048x64 (shapeCast S16x128x64
            (View.ld x0 (Rect.unit (s := S1x16x128x3x64) ![0, 0, 0, c.val, 0] S1x16x128x1x64.size inbL)) shapeCasts_S1x16x128x1x64_S16x128x64)
            shapeCasts_S16x128x64_S2048x64) bitsLt_bf16_f32)
          (truncf .bf16 (shapeCast S2048x64 (shapeCast S16x128x64
            (View.ld x1 (Rect.unit (s := S1x16x128x3x64) ![0, 0, 0, c.val, 0] S1x16x128x1x64.size inbL)) shapeCasts_S1x16x128x1x64_S16x128x64)
            shapeCasts_S16x128x64_S2048x64) bitsLt_bf16_f32))
        shapeCasts_S16x128_S1x16x1x128 x
      = tileOut x0 x1 x2 x3 x4 x5 ((Rect.unit (s := S1x16x3x128) ![0, 0, c.val, 0] S1x16x1x128.size inbS).emb x) := by
  obtain ⟨z, r, z', o, rfl⟩ : ∃ (z : Fin 1) (r : Fin 16) (z' : Fin 1) (o : Fin 128), x = ix4 z r z' o :=
    ⟨x 0, x 1, x 2, x 3, eq_ix4 x⟩
  have he : (Rect.unit (s := S1x16x3x128) ![0, 0, c.val, 0] S1x16x1x128.size inbS).emb (ix4 z r z' o) = ix4 (0 : Fin 1) r c o :=
    funext fun a => Fin.ext (by
      match a with
      | ⟨0, _⟩ => show 0 + 1 * z.val = 0; have := z.isLt; omega
      | ⟨1, _⟩ => show 0 + 1 * r.val = r.val; omega
      | ⟨2, _⟩ => show c.val + 1 * z'.val = c.val; have := z'.isLt; omega
      | ⟨3, _⟩ => show 0 + 1 * o.val = o.val; omega)
  rw [he, piece_apply]
  exact channel_on_blocks x0 x1 x2 x3 x4 x5 c inbL r o

/-- THE BODY'S OUTPUT TILE, from the six input blocks: the canon of the three stores is `tileOut`. -/
theorem out_eq (x0 x1 : Vec Ideal S1x16x128x3x64 .f32) (x2 : Vec Ideal S1x16x128 .f32) (x3 x4 : Vec Ideal S64x128 .f32)
    (x5 : Vec Ideal S128 .f32) :
    out0_6 (F := Ideal) x0 x1 x2 x3 x4 x5 = tileOut x0 x1 x2 x3 x4 x5 := by
  funext y
  unfold out0_6
  refine View.canon_apply_of_pieces (Val := Elt Ideal) (e := .f32) (tileOut x0 x1 x2 x3 x4 x5) _ ?_ y (cover0_6 _ _ _ y)
  intro p hp x
  simp only [List.mem_cons, List.not_mem_nil, or_false] at hp
  rcases hp with rfl | rfl | rfl
  · exact stored_piece x0 x1 x2 x3 x4 x5 (2 : Fin 3) inb_S1x16x128x3x64_S1x16x128x1x64_0_0_0_2_0 inb_S1x16x3x128_S1x16x1x128_0_0_2_0 x
  · exact stored_piece x0 x1 x2 x3 x4 x5 (1 : Fin 3) inb_S1x16x128x3x64_S1x16x128x1x64_0_0_0_1_0 inb_S1x16x3x128_S1x16x1x128_0_0_1_0 x
  · exact stored_piece x0 x1 x2 x3 x4 x5 (0 : Fin 3) inb_S1x16x128x3x64_S1x16x128x1x64_0_0_0_0_0 inb_S1x16x3x128_S1x16x1x128_0_0_0_0 x

end Cert.KernelIdeal.Block

end
-- ==== Proof.Whole.lean ====
/-
  From the output tiles to the whole output array, and the kernel's run.

  The grid has 8 × 8 points: point (b, q) works on batch b and on the 16 nodes q·16 … q·16 + 15.
  Its two feature blocks and its adjacency block are those nodes' slices of the batch-b arrays
  (all neighbours, all channels, all features), its weight and bias blocks are the whole arrays,
  and the tile it writes back is block (b, q) of the output. So the tile of Block.lean at
  (0, r, c, o) is the layer's output at (b, q·16 + r, c, o), the 64 blocks tile the output
  array, and after the run the output array is the layer's output of the arrays the region
  found: the three argument arrays, the bias, and the two halves of the weight matrix that the
  host cut off before the region.
-/
import proofs.«172524_j6451040878948_1_alg».proof.Proof.Gen.KernelIdeal.Value
import proofs.«172524_j6451040878948_1_alg».proof.Proof.Block
import Idealize.ShloMosaic.Lib.StableHlo.Run

set_option maxRecDepth 16384

noncomputable section

namespace Cert.KernelIdeal.Whole

open Cert.KernelIdeal Cert.KernelIdeal.Gen Cert.KernelIdeal.Block
open Idealize.ShloMosaic Idealize.ShloMosaic.TcCoe Idealize.ShloMosaic.ValueIdx Idealize.SL.Sem Cert.GraphConv
open Idealize.ShloMosaic.Pipeline (Dat)

/-- Node q·16 + r of the 128. -/
abbrev nodeOf (q : Fin 8) (r : Fin 16) : Fin 128 := ⟨q.val * 16 + r.val, by have := q.isLt; have := r.isLt; omega⟩

/-- A tile computed from blocks that are slices of whole arrays is the corresponding tile of the layer's output. -/
theorem tile_of_arrays (A0 A1 : S8x128x128x3x64.Idx → EReal) (A2 : S8x128x128.Idx → EReal) (W0 W1 : S64x128.Idx → EReal)
    (Bi : S128.Idx → EReal) (X0 X1 : S1x16x128x3x64.Idx → EReal) (X2 : S1x16x128.Idx → EReal) (X3 X4 : S64x128.Idx → EReal)
    (X5 : S128.Idx → EReal) (b q : Fin 8)
    (h0 : ∀ (r : Fin 16) (j : Fin 128) (c : Fin 3) (f : Fin 64), X0 (ix5 (0 : Fin 1) r j c f) = A0 (ix5 b (nodeOf q r) j c f))
    (h1 : ∀ (r : Fin 16) (j : Fin 128) (c : Fin 3) (f : Fin 64), X1 (ix5 (0 : Fin 1) r j c f) = A1 (ix5 b (nodeOf q r) j c f))
    (h2 : ∀ (r : Fin 16) (j : Fin 128), X2 (ix3 (0 : Fin 1) r j) = A2 (ix3 b (nodeOf q r) j))
    (h3 : X3 = W0) (h4 : X4 = W1) (h5 : X5 = Bi) (r : Fin 16) (c : Fin 3) (o : Fin 128) :
    tileOutAt X0 X1 X2 X3 X4 X5 r c o = nodeOutAt A0 A1 A2 W0 W1 Bi b (nodeOf q r) c o := by
  subst h3 h4 h5
  unfold tileOutAt nodeOutAt contrib
  simp only [h0, h1, h2]

variable (m : (ℓ : Loc nD τ sig) → Buf (Elt Ideal) ℓ) (ρ : Dev nD → PrngReg)

/-- The printed index maps, decided over the 64 grid points: the feature, adjacency and output windows move together
    over (batch, node tile); the weight and bias windows stay at block zero. -/
theorem idx_facts : ∀ t : Fin cfg0.N,
    win0_0.index t (0 : Fin 5) = win0_6.index t (0 : Fin 4) ∧ win0_0.index t (1 : Fin 5) = win0_6.index t (1 : Fin 4)
    ∧ win0_0.index t (2 : Fin 5) = 0 ∧ win0_0.index t (3 : Fin 5) = 0 ∧ win0_0.index t (4 : Fin 5) = 0
    ∧ win0_1.index t (0 : Fin 5) = win0_6.index t (0 : Fin 4) ∧ win0_1.index t (1 : Fin 5) = win0_6.index t (1 : Fin 4)
    ∧ win0_1.index t (2 : Fin 5) = 0 ∧ win0_1.index t (3 : Fin 5) = 0 ∧ win0_1.index t (4 : Fin 5) = 0
    ∧ win0_2.index t (0 : Fin 3) = win0_6.index t (0 : Fin 4) ∧ win0_2.index t (1 : Fin 3) = win0_6.index t (1 : Fin 4)
    ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 4) ≤ 7 ∧ win0_6.index t (1 : Fin 4) ≤ 7
    ∧ win0_6.index t (2 : Fin 4) = 0 ∧ win0_6.index t (3 : Fin 4) = 0 :=
  (by decide +kernel : ∀ t : Fin grid0.N, _)

/-- Every (batch, node tile) pair is some point's output block. -/
theorem idx_onto : ∀ (q0 : Fin 8) (q1 : Fin 8), ∃ t : Fin cfg0.N, win0_6.index t = ![q0.val, q1.val, 0, 0] :=
  (by decide +kernel : ∀ (q0 : Fin 8) (q1 : Fin 8), ∃ t : Fin grid0.N, win0_6.index t = ![q0.val, q1.val, 0, 0])

/-- WHAT POINT t WRITES BACK is block t of the layer's output of the arrays as the region finds them. -/
theorem flushed_eq (c : Dev nD) (t : Fin cfg0.N) :
    (dats m 0 c).flushed 6 t = ((cfg0.win 6).blk t).view.read (Elt Ideal)
      (nodeOut (V m c main_arg0) (V m c main_arg1) (V m c main_arg2) (V m c main_v0) (V m c main_v1) (V m c main_arg4)) := by
  rw [Value.flushed6, out_eq]
  obtain ⟨a00, a01, a02, a03, a04, a10, a11, a12, a13, a14, a20, a21, a22, a30, a31, a40, a41, a50, b0, b1, z2, z3⟩ := idx_facts t
  funext y
  have hy0 : (y 0).val < 1 := (y 0).isLt
  have hy1 : (y 1).val < 16 := (y 1).isLt
  have hy2 : (y 2).val < 3 := (y 2).isLt
  have hy3 : (y 3).val < 128 := (y 3).isLt
  show tileOutAt (iblk m c 0 t) (iblk m c 1 t) (iblk m c 2 t) (iblk m c 3 t) (iblk m c 4 t) (iblk m c 5 t)
        ⟨(y 1).val, hy1⟩ ⟨(y 2).val, hy2⟩ ⟨(y 3).val, hy3⟩
      = nodeOutAt (V m c main_arg0) (V m c main_arg1) (V m c main_arg2) (V m c main_v0) (V m c main_v1) (V m c main_arg4)
        (((cfg0.win 6).blk t).view.emb y 0) (((cfg0.win 6).blk t).view.emb y 1) (((cfg0.win 6).blk t).view.emb y 2)
        (((cfg0.win 6).blk t).view.emb y 3)
  have e0 : ((cfg0.win 6).blk t).view.emb y 0 = (⟨win0_6.index t (0 : Fin 4), by omega⟩ : Fin 8) :=
    Fin.ext (by show win0_6.index t (0 : Fin 4) * 1 + 1 * (y 0).val = win0_6.index t (0 : Fin 4); omega)
  have e1 : ((cfg0.win 6).blk t).view.emb y 1 = nodeOf ⟨win0_6.index t (1 : Fin 4), by omega⟩ ⟨(y 1).val, hy1⟩ :=
    Fin.ext (by show win0_6.index t (1 : Fin 4) * 16 + 1 * (y 1).val = win0_6.index t (1 : Fin 4) * 16 + (y 1).val; omega)
  have e2 : ((cfg0.win 6).blk t).view.emb y 2 = (⟨(y 2).val, hy2⟩ : Fin 3) :=
    Fin.ext (by show win0_6.index t (2 : Fin 4) * 3 + 1 * (y 2).val = (y 2).val; omega)
  have e3 : ((cfg0.win 6).blk t).view.emb y 3 = (⟨(y 3).val, hy3⟩ : Fin 128) :=
    Fin.ext (by show win0_6.index t (3 : Fin 4) * 128 + 1 * (y 3).val = (y 3).val; omega)
  rw [e0, e1, e2, e3]
  refine tile_of_arrays (V m c main_arg0) (V m c main_arg1) (V m c main_arg2) (V m c main_v0) (V m c main_v1) (V m c main_arg4)
    (iblk m c 0 t) (iblk m c 1 t) (iblk m c 2 t) (iblk m c 3 t) (iblk m c 4 t) (iblk m c 5 t)
    ⟨win0_6.index t (0 : Fin 4), by omega⟩ ⟨win0_6.index t (1 : Fin 4), by omega⟩ ?_ ?_ ?_ ?_ ?_ ?_ _ _ _
  · intro r j ch f
    show V m c main_arg0 (((cfg0.win 0).blk t).view.emb (ix5 (0 : Fin 1) r j ch f)) = V m c main_arg0 _
    refine congrArg (V m c main_arg0) (funext fun a => Fin.ext ?_)
    match a with
    | ⟨0, _⟩ => show win0_0.index t (0 : Fin 5) * 1 + 1 * 0 = win0_6.index t (0 : Fin 4); omega
    | ⟨1, _⟩ => show win0_0.index t (1 : Fin 5) * 16 + 1 * r.val = win0_6.index t (1 : Fin 4) * 16 + r.val; omega
    | ⟨2, _⟩ => show win0_0.index t (2 : Fin 5) * 128 + 1 * j.val = j.val; omega
    | ⟨3, _⟩ => show win0_0.index t (3 : Fin 5) * 3 + 1 * ch.val = ch.val; omega
    | ⟨4, _⟩ => show win0_0.index t (4 : Fin 5) * 64 + 1 * f.val = f.val; omega
  · intro r j ch f
    show V m c main_arg1 (((cfg0.win 1).blk t).view.emb (ix5 (0 : Fin 1) r j ch f)) = V m c main_arg1 _
    refine congrArg (V m c main_arg1) (funext fun a => Fin.ext ?_)
    match a with
    | ⟨0, _⟩ => show win0_1.index t (0 : Fin 5) * 1 + 1 * 0 = win0_6.index t (0 : Fin 4); omega
    | ⟨1, _⟩ => show win0_1.index t (1 : Fin 5) * 16 + 1 * r.val = win0_6.index t (1 : Fin 4) * 16 + r.val; omega
    | ⟨2, _⟩ => show win0_1.index t (2 : Fin 5) * 128 + 1 * j.val = j.val; omega
    | ⟨3, _⟩ => show win0_1.index t (3 : Fin 5) * 3 + 1 * ch.val = ch.val; omega
    | ⟨4, _⟩ => show win0_1.index t (4 : Fin 5) * 64 + 1 * f.val = f.val; omega
  · intro r j
    show V m c main_arg2 (((cfg0.win 2).blk t).view.emb (ix3 (0 : Fin 1) r j)) = V m c main_arg2 _
    refine congrArg (V m c main_arg2) (funext fun a => Fin.ext ?_)
    match a with
    | ⟨0, _⟩ => show win0_2.index t (0 : Fin 3) * 1 + 1 * 0 = win0_6.index t (0 : Fin 4); omega
    | ⟨1, _⟩ => show win0_2.index t (1 : Fin 3) * 16 + 1 * r.val = win0_6.index t (1 : Fin 4) * 16 + r.val; omega
    | ⟨2, _⟩ => show win0_2.index t (2 : Fin 3) * 128 + 1 * j.val = j.val; omega
  · funext z
    show V m c main_v0 (((cfg0.win 3).blk t).view.emb z) = V m c main_v0 z
    refine congrArg (V m c main_v0) (funext fun a => Fin.ext ?_)
    match a with
    | ⟨0, _⟩ => show win0_3.index t (0 : Fin 2) * 64 + 1 * (z 0).val = (z 0).val; omega
    | ⟨1, _⟩ => show win0_3.index t (1 : Fin 2) * 128 + 1 * (z 1).val = (z 1).val; omega
  · funext z
    show V m c main_v1 (((cfg0.win 4).blk t).view.emb z) = V m c main_v1 z
    refine congrArg (V m c main_v1) (funext fun a => Fin.ext ?_)
    match a with
    | ⟨0, _⟩ => show win0_4.index t (0 : Fin 2) * 64 + 1 * (z 0).val = (z 0).val; omega
    | ⟨1, _⟩ => show win0_4.index t (1 : Fin 2) * 128 + 1 * (z 1).val = (z 1).val; omega
  · funext z
    show V m c main_arg4 (((cfg0.win 5).blk t).view.emb z) = V m c main_arg4 z
    refine congrArg (V m c main_arg4) (funext fun a => Fin.ext ?_)
    match a with
    | ⟨0, _⟩ => show win0_5.index t (0 : Fin 1) * 128 + 1 * (z 0).val = (z 0).val; omega

/-- An index of the output array is in point t's block iff each coordinate is in the block's range on its axis. -/
theorem mem_blk (t : Fin cfg0.N) (i : S8x128x3x128.Idx) :
    i ∈ ((cfg0.win 6).blk t).view.set ↔ ∀ a : Fin 4, win0_6.index t a * S1x16x3x128.size a ≤ (i a).val
      ∧ (i a).val < win0_6.index t a * S1x16x3x128.size a + S1x16x3x128.size a := by
  show i ∈ ((View.whole main_v2).slice (win0_6.rect t)).set ↔ _
  rw [View.set_slice_whole, Rect.mem_set_unit]
  exact Iff.rfl

/-- The 64 output blocks cover the output array: index (b, n, c, o) lies in the block of point (b, n / 16). -/
theorem cover (i : S8x128x3x128.Idx) : ∃ t : Fin cfg0.N, (cfg0.win 6).flush t = true ∧ i ∈ ((cfg0.win 6).blk t).view.set := by
  have hi0 : (i 0).val < 8 := (i 0).isLt
  have hi1 : (i 1).val < 128 := (i 1).isLt
  have hi2 : (i 2).val < 3 := (i 2).isLt
  have hi3 : (i 3).val < 128 := (i 3).isLt
  obtain ⟨t, ht⟩ := idx_onto ⟨(i 0).val, hi0⟩ ⟨(i 1).val / 16, by omega⟩
  have q0 : win0_6.index t (0 : Fin 4) = (i 0).val := congrFun ht 0
  have q1 : win0_6.index t (1 : Fin 4) = (i 1).val / 16 := congrFun ht 1
  have q2 : win0_6.index t (2 : Fin 4) = 0 := congrFun ht 2
  have q3 : win0_6.index t (3 : Fin 4) = 0 := congrFun ht 3
  refine ⟨t, flush0_6 t, ?_⟩
  rw [mem_blk]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 16 ≤ (i 1).val ∧ (i 1).val < win0_6.index t (1 : Fin 4) * 16 + 16; omega
  | ⟨2, _⟩ => show win0_6.index t (2 : Fin 4) * 3 ≤ (i 2).val ∧ (i 2).val < win0_6.index t (2 : Fin 4) * 3 + 3; omega
  | ⟨3, _⟩ => show win0_6.index t (3 : Fin 4) * 128 ≤ (i 3).val ∧ (i 3).val < win0_6.index t (3 : Fin 4) * 128 + 128; omega

/-- The upper half of the weight matrix, as the host cut it off before the region. -/
theorem V_upper (c : Dev nD) :
    (V m c main_v0 : S64x128.Idx → EReal)
      = extractStridedSlice S64x128 ![0, 0] (m ((c : Thread nD τ).loc main_arg3)) slices_S128x128_S64x128_0_0 := by
  dsimp only [Gen.V, Gen.hostOps0]; after_results <;> rfl

/-- The lower half of the weight matrix, as the host cut it off before the region. -/
theorem V_lower (c : Dev nD) :
    (V m c main_v1 : S64x128.Idx → EReal)
      = extractStridedSlice S64x128 ![64, 0] (m ((c : Thread nD τ).loc main_arg3)) slices_S128x128_S64x128_64_0 := by
  dsimp only [Gen.V, Gen.hostOps0]; after_results <;> rfl

/-- THE OUTPUT ARRAY after the run: the layer's output of the argument arrays, the weight matrix entering by its halves. -/
theorem final (c : Dev nD) :
    (dats m 0 c).arrAt 6 cfg0.N
      = nodeOut (m ((c : Thread nD τ).loc main_arg0)) (m ((c : Thread nD τ).loc main_arg1)) (m ((c : Thread nD τ).loc main_arg2))
          (extractStridedSlice S64x128 ![0, 0] (m ((c : Thread nD τ).loc main_arg3)) slices_S128x128_S64x128_0_0)
          (extractStridedSlice S64x128 ![64, 0] (m ((c : Thread nD τ).loc main_arg3)) slices_S128x128_S64x128_64_0)
          (m ((c : Thread nD τ).loc main_arg4)) := by
  rw [← V_upper m c, ← V_lower m c, ← V_main_arg0 m c, ← V_main_arg1 m c, ← V_main_arg2 m c, ← V_main_arg4 m c]
  exact (dats m 0 c).arrAt_eq_of_cover 6 _ (fun t _ => flushed_eq m c t) cover

/-- THE KERNEL'S RUN: every weakly fair execution ends with the output array at the layer's output and the arguments unchanged. -/
theorem run : θ_run defs (onTc (τ := τ) (main (F := Ideal))) ⟨m, fun _ => 0, ρ⟩ fun r => ∀ c : Dev nD,
      r.2.mem ((c : Thread nD τ).loc main_v2)
        = nodeOut (m ((c : Thread nD τ).loc main_arg0)) (m ((c : Thread nD τ).loc main_arg1)) (m ((c : Thread nD τ).loc main_arg2))
            (extractStridedSlice S64x128 ![0, 0] (m ((c : Thread nD τ).loc main_arg3)) slices_S128x128_S64x128_0_0)
            (extractStridedSlice S64x128 ![64, 0] (m ((c : Thread nD τ).loc main_arg3)) slices_S128x128_S64x128_64_0)
            (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Value.run_blocks m ρ)

end Cert.KernelIdeal.Whole

end
-- ==== Proof.RefValue.lean ====
/-
  The reference program computes the layer's specification.

  The reference concatenates the two 64-feature vectors into one of 128 features and contracts
  it against the whole 128-row weight matrix. Read at an index, the concatenation is v1 on the
  first 64 features and v2 on the last 64, so the contraction over 128 features splits into the
  contraction of v1 with the upper 64 rows plus that of v2 with the lower 64 rows: exactly the
  two projections the specification adds. The bias, the adjacency factor, the sum over the
  neighbours (from a zero start) and the clamp at zero are then the specification's, term by term.
-/
import proofs.«172524_j6451040878948_1_alg».proof.Proof.Gen.ReferenceIdeal.Read
import proofs.«172524_j6451040878948_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.GraphConv

/-- On a feature below 64 the concatenated vector is v1's entry. -/
theorem cat_lo (x0 x1 : S8x128x128x3x64.Idx → EReal) (b : Fin 8) (i j : Fin 128) (c : Fin 3) (f : Fin 64) :
    val_main_v0 (F := Ideal) x0 x1 (ix5 b i j c (⟨f.val, by have := f.isLt; omega⟩ : Fin 128)) = x0 (ix5 b i j c f) := by
  show concatenate S8x128x128x3x128 4 [⟨S8x128x128x3x64, x0⟩, ⟨S8x128x128x3x64, x1⟩] concatenates_S8x128x128x3x64_S8x128x128x3x64_S8x128x128x3x128_d4 _ = _
  exact concatenate_pair_apply_left 4 x0 x1 concatenates_S8x128x128x3x64_S8x128x128x3x64_S8x128x128x3x128_d4 _ rfl _ (fun a => by
    match a with
    | ⟨0, _⟩ => rfl
    | ⟨1, _⟩ => rfl
    | ⟨2, _⟩ => rfl
    | ⟨3, _⟩ => rfl
    | ⟨4, _⟩ => rfl)

/-- On feature 64 + f the concatenated vector is v2's entry f. -/
theorem cat_hi (x0 x1 : S8x128x128x3x64.Idx → EReal) (b : Fin 8) (i j : Fin 128) (c : Fin 3) (f : Fin 64) :
    val_main_v0 (F := Ideal) x0 x1 (ix5 b i j c (⟨64 + f.val, by have := f.isLt; omega⟩ : Fin 128)) = x1 (ix5 b i j c f) := by
  show concatenate S8x128x128x3x128 4 [⟨S8x128x128x3x64, x0⟩, ⟨S8x128x128x3x64, x1⟩] concatenates_S8x128x128x3x64_S8x128x128x3x64_S8x128x128x3x128_d4 _ = _
  exact concatenate_pair_apply_right 4 x0 x1 concatenates_S8x128x128x3x64_S8x128x128x3x64_S8x128x128x3x128_d4 _ rfl rfl _ (fun a ha => by
    match a with
    | ⟨0, _⟩ => rfl
    | ⟨1, _⟩ => rfl
    | ⟨2, _⟩ => rfl
    | ⟨3, _⟩ => rfl
    | ⟨4, _⟩ => exact absurd rfl ha) (by show f.val + 64 = 64 + f.val; omega)

/-- The upper half of the weight matrix, read at (f, o), is the matrix at (f, o). -/
theorem upper_apply (x3 : S128x128.Idx → EReal) (h : S128x128.Slices ![0, 0] ⟨2, ![64, 128]⟩) (f : Fin 64) (o : Fin 128) :
    extractStridedSlice ⟨2, ![64, 128]⟩ ![0, 0] x3 h (ix2 f o) = x3 (ix2 (⟨f.val, by have := f.isLt; omega⟩ : Fin 128) o) :=
  extractStridedSlice_apply _ x3 h _ _ (fun a => by
    match a with
    | ⟨0, _⟩ => show f.val = 0 + f.val; omega
    | ⟨1, _⟩ => show o.val = 0 + o.val; omega)

/-- The lower half of the weight matrix, read at (f, o), is the matrix at (64 + f, o). -/
theorem lower_apply (x3 : S128x128.Idx → EReal) (h : S128x128.Slices ![64, 0] ⟨2, ![64, 128]⟩) (f : Fin 64) (o : Fin 128) :
    extractStridedSlice ⟨2, ![64, 128]⟩ ![64, 0] x3 h (ix2 f o) = x3 (ix2 (⟨64 + f.val, by have := f.isLt; omega⟩ : Fin 128) o) :=
  extractStridedSlice_apply _ x3 h _ _ (fun a => by
    match a with
    | ⟨0, _⟩ => show 64 + f.val = 64 + f.val; rfl
    | ⟨1, _⟩ => show o.val = 0 + o.val; omega)

/-- One neighbour's term of the reference's sum is the specification's contribution. -/
theorem term_eq (x0 x1 : S8x128x128x3x64.Idx → EReal) (x2 : S8x128x128.Idx → EReal) (x3 : S128x128.Idx → EReal) (x4 : S128.Idx → EReal)
    (h0 : S128x128.Slices ![0, 0] ⟨2, ![64, 128]⟩) (h1 : S128x128.Slices ![64, 0] ⟨2, ![64, 128]⟩)
    (b : Fin 8) (n : Fin 128) (c : Fin 3) (o : Fin 128) (j : Fin 128) :
    val_main_v7 (F := Ideal) x0 x1 x2 x3 x4 (ix5 b n j c o)
      = contrib x0 x1 x2 (extractStridedSlice ⟨2, ![64, 128]⟩ ![0, 0] x3 h0) (extractStridedSlice ⟨2, ![64, 128]⟩ ![64, 0] x3 h1) x4 b n c o j := by
  have eb : idx_main_v2 (idx_main_v3 (ix5 b n j c o)) = ix1 o :=
    funext fun a => Fin.ext (by match a with | ⟨0, _⟩ => rfl)
  have ea : idx_main_v5 (idx_main_v6 (ix5 b n j c o)) = ix3 b n j :=
    funext fun a => Fin.ext (by match a with | ⟨0, _⟩ => rfl | ⟨1, _⟩ => rfl | ⟨2, _⟩ => rfl)
  have el : ∀ k : Fin 128, lidx_main_v1 (ix5 b n j c o) k = ix5 b n j c k := fun k =>
    funext fun a => Fin.ext (by match a with | ⟨0, _⟩ => rfl | ⟨1, _⟩ => rfl | ⟨2, _⟩ => rfl | ⟨3, _⟩ => rfl | ⟨4, _⟩ => rfl)
  have er : ∀ k : Fin 128, ridx_main_v1 (ix5 b n j c o) k = ix2 k o := fun k =>
    funext fun a => Fin.ext (by match a with | ⟨0, _⟩ => rfl | ⟨1, _⟩ => rfl)
  rw [val_main_v7_apply, val_main_v4_apply, val_main_v1_apply, val_main_v3_apply, val_main_v2_apply, val_main_v6_apply,
    val_main_v5_apply, eb, ea]
  simp only [el, er]
  rw [sum_split_64]
  simp only [cat_lo, cat_hi]
  unfold contrib
  simp only [upper_apply, lower_apply]
  rfl

/-- THE REFERENCE'S RESULT is the layer's output, with the weight matrix's two halves as the two projections' weights. -/
theorem result_eq (x0 x1 : S8x128x128x3x64.Idx → EReal) (x2 : S8x128x128.Idx → EReal) (x3 : S128x128.Idx → EReal) (x4 : S128.Idx → EReal)
    (h0 : S128x128.Slices ![0, 0] ⟨2, ![64, 128]⟩) (h1 : S128x128.Slices ![64, 0] ⟨2, ![64, 128]⟩) :
    val_main_v9 (F := Ideal) x0 x1 x2 x3 x4
      = nodeOut x0 x1 x2 (extractStridedSlice ⟨2, ![64, 128]⟩ ![0, 0] x3 h0) (extractStridedSlice ⟨2, ![64, 128]⟩ ![64, 0] x3 h1) x4 := by
  funext i
  obtain ⟨b, n, c, o, rfl⟩ : ∃ (b : Fin 8) (n : Fin 128) (c : Fin 3) (o : Fin 128), i = ix4 b n c o :=
    ⟨i 0, i 1, i 2, i 3, eq_ix4 i⟩
  rw [nodeOut_ix4, val_main_v9_apply, val_main_v8_apply, val_main_call0_v0_apply, val_main_call0_cst_apply, val_main_cst_apply]
  unfold nodeOutAt
  refine congrArg (fun s => max s floor0) ?_
  show Ideal.ofBits .f32 0x00000000#32 + _ = _
  rw [Ideal.ofBits_zero_f32, zero_add]
  refine Finset.sum_congr rfl fun j _ => ?_
  have e8 : idx_main_v8 (ix4 b n c o) j = ix5 b n j c o :=
    funext fun a => Fin.ext (by match a with | ⟨0, _⟩ => rfl | ⟨1, _⟩ => rfl | ⟨2, _⟩ => rfl | ⟨3, _⟩ => rfl | ⟨4, _⟩ => rfl)
  rw [e8]
  exact term_eq x0 x1 x2 x3 x4 h0 h1 b n c o j

end Cert.ReferenceIdeal.RefValue

end
-- ==== Proof.lean ====
/-
  A masked graph convolution over node features: the kernel and its reference compute one function.

  Both programs compute, for batch b, node i, coordinate channel c and filter o,

      out[b, i, c, o] = max (∑ j, ((∑ f, v1[b,i,j,c,f] · w[f,o]) + (∑ f, v2[b,i,j,c,f] · w[64 + f,o]) + bias[o]) · adj[b,i,j]) 0

  over the extended reals (Proof/Spec.lean). The kernel walks an 8 × 8 grid of (batch, 16-node tile) points; at
  each it multiplies the two 64-feature slabs into the upper and the lower half of the weight matrix, adds bias,
  scales by the adjacency rows, sums over the 128 neighbours and clamps at zero, one channel at a time
  (Proof/Tile.lean, Proof/Block.lean), and the 64 tiles it writes back tile the output array (Proof/Whole.lean).
  The reference concatenates the two feature vectors and contracts the 128 features against the whole weight
  matrix; the contraction over 128 features splits into the two over 64 (Proof/RefValue.lean). Sums are only
  regrouped, never distributed over or cancelled, so the equality needs nothing of the inputs: the
  precondition is not used by the value claim. The changes of float format inside the kernel are the identity
  over the extended reals, and the idealization rewrote no operation, so there is nothing to preserve.
-/
import proofs.«172524_j6451040878948_1_alg».proof.Defs
import proofs.«172524_j6451040878948_1_alg».proof.Proof.Gen.Kernel
import proofs.«172524_j6451040878948_1_alg».proof.Proof.Gen.Kernel.Skeleton
import proofs.«172524_j6451040878948_1_alg».proof.Proof.Gen.Kernel.Launch
import proofs.«172524_j6451040878948_1_alg».proof.Proof.Gen.Kernel.Points
import proofs.«172524_j6451040878948_1_alg».proof.Proof.Gen.Kernel.Frame
import proofs.«172524_j6451040878948_1_alg».proof.Proof.Gen.KernelIdeal
import proofs.«172524_j6451040878948_1_alg».proof.Proof.Gen.KernelIdeal.Skeleton
import proofs.«172524_j6451040878948_1_alg».proof.Proof.Gen.KernelIdeal.Launch
import proofs.«172524_j6451040878948_1_alg».proof.Proof.Gen.KernelIdeal.Points
import proofs.«172524_j6451040878948_1_alg».proof.Proof.Gen.KernelIdeal.Frame
import proofs.«172524_j6451040878948_1_alg».proof.Proof.Gen.ReferenceIdeal
import proofs.«172524_j6451040878948_1_alg».proof.Proof.Gen.Pre_finite_inputs
import proofs.«172524_j6451040878948_1_alg».proof.Proof.Gen.KernelIdeal.Value
import proofs.«172524_j6451040878948_1_alg».proof.Proof.Gen.ReferenceIdeal.Run
import proofs.«172524_j6451040878948_1_alg».proof.Proof.Gen.ReferenceIdeal.Read
import proofs.«172524_j6451040878948_1_alg».proof.Proof.Whole
import proofs.«172524_j6451040878948_1_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end without a fault and leaves its arguments alone. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel was read over the extended reals. -/
theorem preserves : Cert.preserves_Kernel_KernelIdeal := trivial

/-- From arguments that agree, both programs end with the layer's output: the kernel tile by tile, the reference through the
    concatenated contraction split at feature 64. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  exact (Cert.ReferenceIdeal.Read.val_main_v9_eq _ _ _ _ _).trans
    (Cert.ReferenceIdeal.RefValue.result_eq _ _ _ _ _ Cert.KernelIdeal.Gen.slices_S128x128_S64x128_0_0
      Cert.KernelIdeal.Gen.slices_S128x128_S64x128_64_0)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
